-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S32000x256 : Shape := ⟨2, ![32000, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S32000x256 : S_.BroadcastsInDim S32000x256 (![] : Fin 0 → Fin S32000x256.rank)
  reducesTo_S32000x256_S_d0_1 : S32000x256.ReducesTo [0, 1] S_
  bcast_S_S8192 : S_.BroadcastsInDim S8192 (![] : Fin 0 → Fin S8192.rank)
  reducesTo_S8192_S_d0 : S8192.ReducesTo [0] S_
  reducesTo_S8192x256_S8192_d1 : S8192x256.ReducesTo [1] S8192

variable [Facts]

def fn_part1 {F : FTy → Type} [FloatOps F] (main_arg0 : FVec F S8192x256 .f32) (main_v12 : IVec S_ 1) (main_v15 : IVec S_ 1) : IVec S_ 1 :=
  let main_v16 : IVec S_ 1 := andi main_v12 main_v15
  let main_v17 : FVec F S8192x256 .f32 := mulf main_arg0 main_arg0
  let main_cst_6 : FVec F S_ .f32 := constant S_ .f32 0x00000000#32
  let main_v18 : FVec F S8192 .f32 := (fun x v => Host.reduceAdd x v reducesTo_S8192x256_S8192_d1 h_S_) main_v17 main_cst_6
  let main_cst_7 : FVec F S_ .f32 := constant S_ .f32 0x00000000#32
  let main_v19 : FVec F S8192 .f32 := broadcastInDim S8192 ![] bcast_S_S8192 main_cst_7
  let main_v20 : IVec S8192 1 := cmpf .ogt main_v18 main_v19
  let main_c_8 : IVec S_ 1 := constantI S_ 1 1#1
  let main_v21 : IVec S_ 1 := (fun x v => Host.reduce IntOp.andi x v reducesTo_S8192_S_d0 h_S_) main_v20 main_c_8
  let main_v22 : IVec S_ 1 := andi main_v16 main_v21
  main_v22

def fn {F : FTy → Type} [FloatOps F] (main_arg0 : FVec F S8192x256 .f32) (main_arg1 : IVec S8192 32) (main_arg2 : FVec F S32000x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S32000x256 .f32 := Host.absf main_arg2
  let main_cst_0 : FVec F S_ .f32 := constant S_ .f32 0x7F800000#32
  let main_v5 : FVec F S32000x256 .f32 := broadcastInDim S32000x256 ![] bcast_S_S32000x256 main_cst_0
  let main_v6 : IVec S32000x256 1 := cmpf .olt main_v4 main_v5
  let main_c_1 : IVec S_ 1 := constantI S_ 1 1#1
  let main_v7 : IVec S_ 1 := (fun x v => Host.reduce IntOp.andi x v reducesTo_S32000x256_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg1 main_v9
  let main_c_3 : IVec S_ 1 := constantI S_ 1 1#1
  let main_v11 : IVec S_ 1 := (fun x v => Host.reduce IntOp.andi x v reducesTo_S8192_S_d0 h_S_) main_v10 main_c_3
  let main_v12 : IVec S_ 1 := andi main_v8 main_v11
  let main_c_4 : IVec S_ 32 := constantI S_ 32 32000#32
  let main_v13 : IVec S8192 32 := broadcastInDim S8192 ![] bcast_S_S8192 main_c_4
  let main_v14 : IVec S8192 1 := cmpi .slt main_arg1 main_v13
  let main_c_5 : IVec S_ 1 := constantI S_ 1 1#1
  let main_v15 : IVec S_ 1 := (fun x v => Host.reduce IntOp.andi x v reducesTo_S8192_S_d0 h_S_) main_v14 main_c_5
  fn_part1 (F := F) main_arg0 main_v12 main_v15
-- ==== Kernel.lean ====
abbrev S8192x256 : Shape := ⟨2, ![8192, 256]⟩
abbrev S8192 : Shape := ⟨1, ![8192]⟩
abbrev S32000x256 : Shape := ⟨2, ![32000, 256]⟩
abbrev S8192x1 : Shape := ⟨2, ![8192, 1]⟩
abbrev S512x256 : Shape := ⟨2, ![512, 256]⟩
abbrev S512x1 : Shape := ⟨2, ![512, 1]⟩
abbrev S512 : Shape := ⟨1, ![512]⟩
abbrev S1280x256 : Shape := ⟨2, ![1280, 256]⟩
abbrev S512x1280 : Shape := ⟨2, ![512, 1280]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S32000x256, .f32⟩
  | .hbm, ⟨3, _⟩ => ⟨S8192x1, .i32⟩
  | .hbm, ⟨4, _⟩ => ⟨S32000x256, .bf16⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S32000x256, .bf16⟩
  | .local _ .vmem, ⟨3, _⟩ => ⟨S512x1, .i32⟩
  | .local _ .vmem, ⟨4, _⟩ => ⟨S512x1, .i32⟩
  | .local _ .vmem, ⟨5, _⟩ => ⟨S512x1, .f32⟩
  | .local _ .vmem, ⟨6, _⟩ => ⟨S512x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c25_i32 : BitVec 32 := 25#32
  let v12 : BitVec 32 := Scalar.addi c0_i32 c25_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c1280_i32 : BitVec 32 := 1280#32
  let v29 : BitVec 32 := Scalar.muli arg5 c1280_i32
  v29
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c1280_i32 : BitVec 32 := 1280#32
  let v29 : BitVec 32 := Scalar.muli arg5 c1280_i32
  let v30 : BitVec 32 := v29
  let v31 : Index := Scalar.indexCast v30
  let c0_12 : Index := 0#32
  ![v31.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192_S8192x1 : S8192.ShapeCasts S8192x1
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  reduces_S512x256_S512 : S512x256.Reduces [1] S512
  shapeCasts_S512_S512x1 : S512.ShapeCasts S512x1
  broadcasts_S512x1_S512x256 : S512x1.Broadcasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S1280x256 : 0 < S1280x256.numel
  shapeCasts_S1280x256_S1280x256 : S1280x256.ShapeCasts S1280x256
  reduces_S512x1280_S512 : S512x1280.Reduces [1] S512
  iota_S512x1280_d1_w32 : S512x1280.Iotas .tc 32 [1]
  broadcasts_S512x1_S512x1280 : S512x1.Broadcasts S512x1280
  reducesTo_S8192x1_S_d0_1 : S8192x1.ReducesTo [0, 1] S_
  h_S_ : 0 < S_.numel
  dot_S512x256_S1280x256_S512x1280_1_1_0_0_n_n_wf : DotDims.WF S512x256 S1280x256 S512x1280 [1] [1] [0] [0] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1280x256.size a ≤ S32000x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32000x256.size a ≤ S32000x256.size a
  hwx0_1 : ∀ i : grid0.Coords, EltTy.bits .bf16 = 32 ∨ (Rect.block (s := S32000x256) S32000x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)

variable [Facts₀]

def dot_S512x256_S1280x256_S512x1280_1_1_0_0_n_n : DotDims S512x256 S1280x256 S512x1280 where
  lhsContracting := [1]
  rhsContracting := [1]
  lhsNonContracting := [0]
  rhsNonContracting := [0]
  lhsBatch := []
  rhsBatch := []
  wf := dot_S512x256_S1280x256_S512x1280_1_1_0_0_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192 : Shape := ⟨1, ![8192]⟩
abbrev S32000x256 : Shape := ⟨2, ![32000, 256]⟩
abbrev S_ : Shape := ⟨0, ![]⟩
abbrev S8192x1 : Shape := ⟨2, ![8192, 1]⟩
abbrev S256x32000 : Shape := ⟨2, ![256, 32000]⟩
abbrev S8192x32000 : Shape := ⟨2, ![8192, 32000]⟩
abbrev S8192x2 : Shape := ⟨2, ![8192, 2]⟩

abbrev nBuf : Space → Nat
  | .hbm => 57
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S32000x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S8192x256, .f32⟩
  | .hbm, ⟨9, _⟩ => ⟨S8192x256, .f32⟩
  | .hbm, ⟨10, _⟩ => ⟨S256x32000, .f32⟩
  | .hbm, ⟨11, _⟩ => ⟨S8192x32000, .f32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S8192x1, .i32⟩
  | .hbm, ⟨28, _⟩ => ⟨S8192x1, .i32⟩
  | .hbm, ⟨29, _⟩ => ⟨S8192x2, .i32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S8192x32000, .f32⟩
  | .hbm, ⟨39, _⟩ => ⟨S8192x32000, .f32⟩
  | .hbm, ⟨40, _⟩ => ⟨S8192x32000, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S32000x256_S256x32000_1_0 : S32000x256.Transposes [1, 0] S256x32000
  bcast_S_S8192 : S_.BroadcastsInDim S8192 (![] : Fin 0 → Fin S8192.rank)
  concatenates_S8192x1_S8192x1_S8192x2_d1 : Shape.Concatenates [S8192x1, S8192x1] S8192x2 1
  bcast_S_S8192x32000 : S_.BroadcastsInDim S8192x32000 (![] : Fin 0 → Fin S8192x32000.rank)
  reducesTo_S8192x32000_S8192_d1 : S8192x32000.ReducesTo [1] S8192
  reducesTo_S8192_S_d0 : S8192.ReducesTo [0] S_
  dot_S8192x256_S256x32000_S8192x32000_1_0_0_1_n_n_wf : DotDims.WF S8192x256 S256x32000 S8192x32000 [1] [0] [0] [1] [] []
  gather_S8192x32000_S8192x2_S8192_n_01_n_n_01_1_11_wf : GatherDims.WF S8192x32000 S8192x2 S8192 [] [0, 1] [] [0, 1] [] 1 ![1, 1]

variable [Facts₀]

def dot_S8192x256_S256x32000_S8192x32000_1_0_0_1_n_n : DotDims S8192x256 S256x32000 S8192x32000 where
  lhsContracting := [1]
  rhsContracting := [0]
  lhsNonContracting := [0]
  rhsNonContracting := [1]
  lhsBatch := []
  rhsBatch := []
  wf := dot_S8192x256_S256x32000_S8192x32000_1_0_0_1_n_n_wf
def gather_S8192x32000_S8192x2_S8192_n_01_n_n_01_1_11 : GatherDims S8192x32000 S8192x2 S8192 where
  offsetDims := []
  collapsedSliceDims := [0, 1]
  operandBatchingDims := []
  startIndicesBatchingDims := []
  startIndexMap := [0, 1]
  indexVectorDim := 1
  sliceSizes := ![1, 1]
  wf := gather_S8192x32000_S8192x2_S8192_n_01_n_n_01_1_11_wf

class Facts : Prop extends Facts₀ where

variable [Facts]
-- ==== Proof.Spec.lean ====
/-
  The margin-softmax loss both programs compute, as one function of the three argument arrays over the extended reals.

  Row r of the batch x is divided by its Euclidean norm; its logit for class c is the inner product of the normalised row
  with row c of the weight W; with z the logits of the row and y its label, the row's loss is
      L = s·(z y − m) − log (exp (s·(z y − m)) + (Σ_c exp (s·z c) − exp (s·z y))),
  s = 30 and m the single-precision 0.4, and the result is the mean over the 8192 rows of −L.
  The operations are the ideal instance's own (division by zero, the logarithm at zero and the infinities have the values
  that instance gives them), so that both programs' terms can be rewritten to this one without any hypothesis; the
  hypotheses (real entries, labels in the class range, no zero row) enter only where an algebraic law needs them.
-/
import Idealize.ShloMosaic.PureOps.Ideal
import Idealize.ShloMosaic.PureOps.Ideal.Laws
import Idealize.ShloMosaic.Lib.ValueIdx

noncomputable section

open scoped BigOperators

namespace Cert.CosLoss

open Idealize.ShloMosaic Idealize.ShloMosaic.ValueIdx

/-- The batch's shape, the weight's and the labels'. -/
abbrev SX : Shape := ⟨2, ![8192, 256]⟩
abbrev SW : Shape := ⟨2, ![32000, 256]⟩
abbrev SL : Shape := ⟨1, ![8192]⟩

/-- The scale s = 30, the margin m = f32(0.4) and the batch size 8192, as the words both programs carry. -/
def s30 : EReal := Ideal.ofBits .f32 0x41F00000#32
def m04 : EReal := Ideal.ofBits .f32 0x3ECCCCCD#32
def n8192 : EReal := Ideal.ofBits .f32 0x46000000#32

/-- The Euclidean norm of a row. -/
def rowNorm (xr : Fin 256 → EReal) : EReal := Ideal.sqrt (∑ k : Fin 256, xr k * xr k)

/-- The logit of a class: the row divided by its norm, against the class's weight row. -/
def logit (xr wc : Fin 256 → EReal) : EReal := ∑ k : Fin 256, Ideal.div (xr k) (rowNorm xr) * wc k

/-- A row's loss from its logits `z` and its label `y`. -/
def lossOf (z : Fin 32000 → EReal) (y : Fin 32000) : EReal :=
  s30 * (z y - m04) - Ideal.log (Ideal.exp (s30 * (z y - m04)) + ((∑ c : Fin 32000, Ideal.exp (s30 * z c)) - Ideal.exp (s30 * z y)))

/-- A row's loss from the row, the weight and the label. -/
def rowLoss (xr : Fin 256 → EReal) (W : Fin 32000 → Fin 256 → EReal) (y : Fin 32000) : EReal :=
  lossOf (fun c => logit xr (W c)) y

/-- Row r's label as a class: the word read unsigned (clamped into the class range, where an in-range word is itself). -/
def labelOf (lab : SL.Idx → BitVec 32) (r : Fin 8192) : Fin 32000 := ⟨min (lab (ix1 r)).toNat 31999, by omega⟩

/-- The loss of row r of the batch. -/
def lossAt (x : SX.Idx → EReal) (lab : SL.Idx → BitVec 32) (W : SW.Idx → EReal) (r : Fin 8192) : EReal :=
  rowLoss (fun k => x (ix2 r k)) (fun c k => W (ix2 c k)) (labelOf lab r)

/-- The result: the mean over the batch of the negated losses. -/
def result (x : SX.Idx → EReal) (lab : SL.Idx → BitVec 32) (W : SW.Idx → EReal) : EReal :=
  Ideal.div (∑ r : Fin 8192, (0 - lossAt x lab W r)) n8192

/-- The domain the claim is stated on: real entries, labels in the class range, no zero row. -/
structure Dom (x : SX.Idx → EReal) (lab : SL.Idx → BitVec 32) (W : SW.Idx → EReal) : Prop where
  xreal : ∀ i, ∃ a : ℝ, x i = (a : EReal)
  wreal : ∀ i, ∃ a : ℝ, W i = (a : EReal)
  labRange : ∀ i, 0 ≤ (lab i).toInt ∧ (lab i).toInt < 32000
  pos : ∀ r : Fin 8192, 0 < ∑ k : Fin 256, x (ix2 r k) * x (ix2 r k)

end Cert.CosLoss

end
-- ==== Proof.SpecLaws.lean ====
/-
  The two places where the claim needs its domain, as laws of the extended reals: on the domain every row's loss is a real
  number, and negation passes through a mean of real numbers.
-/
import proofs.«401756_j22402549416286_2_alg».proof.Proof.Spec

noncomputable section

open scoped BigOperators

namespace Cert.CosLoss

open Idealize.ShloMosaic Idealize.ShloMosaic.ValueIdx

/-- A label word in the class range read signed is the word read unsigned. -/
theorem toNat_lt_of_range {w : BitVec 32} (h : 0 ≤ w.toInt ∧ w.toInt < 32000) : w.toNat < 32000 ∧ w.toInt = (w.toNat : Int) := by
  have hlt := w.isLt
  rw [BitVec.toInt_eq_toNat_cond] at h ⊢
  split_ifs at h ⊢ with hc <;> omega

/-- The scale's word denotes the real 30. -/
theorem s30_eq : s30 = ((30 : ℝ) : EReal) := by
  simp [s30, Ideal.ofBits, Ideal.ieee, -EReal.coe_mul]; norm_num

/-- The margin's word denotes the real 13421773 / 2^25. -/
theorem m04_eq : m04 = ((13421773 / 33554432 : ℝ) : EReal) := by
  simp [m04, Ideal.ofBits, Ideal.ieee, -EReal.coe_mul]; norm_num

/-- The batch size's word denotes the real 8192. -/
theorem n8192_eq : n8192 = ((8192 : ℝ) : EReal) := by
  simp [n8192, Ideal.ofBits, Ideal.ieee, -EReal.coe_mul]; norm_num

/-- A finite sum of real numbers, taken in the extended reals, is the real sum. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A row's loss from real logits is real: every exponential is a positive real, and the logarithm's argument is at least
    exp (s·(z y − m)) > 0 because the full sum of exponentials contains the label's term. -/
theorem lossOf_real (zr : Fin 32000 → ℝ) (y : Fin 32000) :
    ∃ a : ℝ, lossOf (fun c => (zr c : EReal)) y = (a : EReal) := by
  set s : ℝ := 30 with hs
  set m : ℝ := 13421773 / 33554432 with hm
  set A : ℝ := Real.exp (s * (zr y - m)) + ((∑ c : Fin 32000, Real.exp (s * zr c)) - Real.exp (s * zr y)) with hA
  have hle : Real.exp (s * zr y) ≤ ∑ c : Fin 32000, Real.exp (s * zr c) :=
    Finset.single_le_sum (f := fun c => Real.exp (s * zr c)) (fun c _ => (Real.exp_pos _).le) (Finset.mem_univ y)
  have hApos : 0 < A := by
    have := Real.exp_pos (s * (zr y - m))
    rw [hA]; linarith
  refine ⟨s * (zr y - m) - Real.log A, ?_⟩
  have harg : Ideal.exp (s30 * ((zr y : EReal) - m04))
      + ((∑ c : Fin 32000, Ideal.exp (s30 * (zr c : EReal))) - Ideal.exp (s30 * (zr y : EReal))) = (A : EReal) := by
    rw [s30_eq, m04_eq]
    simp only [← EReal.coe_sub, ← EReal.coe_mul, Ideal.exp_coe, coe_sum, ← EReal.coe_add]
    rfl
  unfold lossOf
  rw [harg, Ideal.log_coe, if_neg (not_le.2 hApos), s30_eq, m04_eq, ← EReal.coe_sub, ← EReal.coe_mul, ← EReal.coe_sub]

/-- On the domain every row's loss is a real number: the norm is positive, so the normalised row and every logit are real,
    every exponential is a positive real, and the logarithm's argument is at least exp (s·(z y − m)) > 0 because the full
    sum of exponentials contains the label's term. -/
theorem rowLoss_real (xr : Fin 256 → EReal) (W : Fin 32000 → Fin 256 → EReal) (y : Fin 32000)
    (hx : ∀ k, ∃ a : ℝ, xr k = (a : EReal)) (hW : ∀ c k, ∃ a : ℝ, W c k = (a : EReal))
    (hpos : 0 < ∑ k : Fin 256, xr k * xr k) : ∃ a : ℝ, rowLoss xr W y = (a : EReal) := by
  choose a ha using hx
  choose b hb using hW
  have hsq : (∑ k : Fin 256, xr k * xr k) = ((∑ k : Fin 256, a k * a k : ℝ) : EReal) := by
    simp only [ha, ← EReal.coe_mul, coe_sum]
  have hpos' : 0 < ∑ k : Fin 256, a k * a k := by
    rw [hsq] at hpos; exact_mod_cast hpos
  have hN : 0 < Real.sqrt (∑ k : Fin 256, a k * a k) := Real.sqrt_pos.2 hpos'
  have hnorm : rowNorm xr = ((Real.sqrt (∑ k : Fin 256, a k * a k) : ℝ) : EReal) := by
    unfold rowNorm
    rw [hsq, Ideal.sqrt_coe, if_neg (not_lt.2 hpos'.le)]
  have hlogit : ∀ c, logit xr (W c)
      = ((∑ k : Fin 256, a k * (1 / Real.sqrt (∑ k : Fin 256, a k * a k)) * b c k : ℝ) : EReal) := by
    intro c
    unfold logit
    rw [hnorm]
    simp only [Ideal.div_coe hN.ne', ha, hb, ← EReal.coe_mul, coe_sum]
  unfold rowLoss
  simp only [hlogit]
  exact lossOf_real _ y

/-- Negation passes through the mean of real numbers: the mean of the negated losses is the negated mean of the losses. -/
theorem mean_neg (L : Fin 8192 → EReal) (hL : ∀ r, ∃ a : ℝ, L r = (a : EReal)) :
    Ideal.div (∑ r : Fin 8192, (0 - L r)) n8192 = -(Ideal.div (∑ r : Fin 8192, L r) n8192) := by
  choose a ha using hL
  have h8 : (8192 : ℝ) ≠ 0 := by norm_num
  have h0 : ∀ r, (0 : EReal) - (a r : EReal) = ((-a r : ℝ) : EReal) := by
    intro r; rw [zero_sub, EReal.coe_neg]
  rw [n8192_eq, Ideal.div_coe h8, Ideal.div_coe h8]
  simp only [ha, h0, coe_sum, ← EReal.coe_mul, ← EReal.coe_neg]
  rw [Finset.sum_neg_distrib, neg_mul]

/-- On the domain every row's loss is real. -/
theorem lossAt_real {x : SX.Idx → EReal} {lab : SL.Idx → BitVec 32} {W : SW.Idx → EReal} (h : Dom x lab W) (r : Fin 8192) :
    ∃ a : ℝ, lossAt x lab W r = (a : EReal) :=
  rowLoss_real _ _ _ (fun k => h.xreal _) (fun c k => h.wreal _) (h.pos r)

/-- On the domain the result is the negated mean of the losses. -/
theorem result_eq_neg_mean {x : SX.Idx → EReal} {lab : SL.Idx → BitVec 32} {W : SW.Idx → EReal} (h : Dom x lab W) :
    result x lab W = -(Ideal.div (∑ r : Fin 8192, lossAt x lab W r) n8192) :=
  mean_neg _ (lossAt_real h)

end Cert.CosLoss

end
-- ==== Proof.KFold.lean ====
/-
  The kernel body's loop as a recursion on the trip count. Trip k loads rows 1280·k … 1280·k + 1279 of the resident weight
  and adds, to the first carried column, each row's sum of exp (s·logit) over those classes and, to the second, each row's
  sum of the logits at the classes equal to the row's label (at most one of them); `fold n` is the carried pair before trip n.
-/
import proofs.«401756_j22402549416286_2_alg».proof.Proof.Gen.KernelIdeal.Skeleton
import Idealize.ShloMosaic.Lib.Pipeline.FrameBody
import Idealize.ShloMosaic.Lib.ValueIdx

noncomputable section

namespace Cert.KernelIdeal.Fold

open Cert.KernelIdeal Cert.KernelIdeal.Gen Idealize.ShloMosaic Idealize.ShloMosaic.ValueIdx

variable {F : FTy → Type} [FloatOps F]

/-- The loop makes 25 trips. -/
theorem trips_eq : k0_t1_loop.trips = 25 := by decide

/-- Trip k's load: rows 1280·k … 1280·k + 1279 of the weight. -/
def chunk (w : Vec F S32000x256 .bf16) (k : Fin k0_t1_loop.trips) : Vec F S1280x256 .bf16 :=
  View.ld w (Rect.unit (s := S32000x256) (k0_off1 k) S1280x256.size (k0_off1_inb k))

/-- Entry (j, q) of trip k's load is entry (1280·k + j, q) of the weight. -/
theorem chunk_apply (w : Vec F S32000x256 .bf16) (k : Fin k0_t1_loop.trips) (j : Fin 1280) (q : Fin 256) :
    chunk w k (ix2 j q) = w (ix2 (⟨1280 * k.val + j.val, by have := k.isLt; have := trips_eq; omega⟩ : Fin 32000) q) := by
  unfold chunk View.ld
  refine congrArg w (funext fun a => Fin.ext ?_)
  have e := k0_off1_eq k
  match a with
  | ⟨0, _⟩ =>
    show (k0_off1 k) 0 + 1 * j.val = 1280 * k.val + j.val
    rw [e]; show 1280 * k.val + 1 * j.val = _; omega
  | ⟨1, _⟩ =>
    show (k0_off1 k) 1 + 1 * q.val = q.val
    rw [e]; show 0 + 1 * q.val = _; omega

/-- The carried pair before trip n: zeros, then each trip's two payloads of the pair before it. -/
def fold (v0 : Vec F S512x256 .f32) (v8 : Vec F S512x1 .i32) (w : Vec F S32000x256 .bf16) :
    ℕ → FVec F S512x1 .f32 × FVec F S512x1 .f32
  | 0 => (k0_pay1 (F := F), k0_pay2 (F := F))
  | n + 1 =>
    if h : n < k0_t1_loop.trips then
      (k0_pay4 v0 (fold v0 v8 w n).1 (chunk w ⟨n, h⟩), k0_pay5 v0 v8 ⟨n, h⟩ (fold v0 v8 w n).2 (chunk w ⟨n, h⟩))
    else fold v0 v8 w n

theorem fold_zero (v0 : Vec F S512x256 .f32) (v8 : Vec F S512x1 .i32) (w : Vec F S32000x256 .bf16) :
    fold v0 v8 w 0 = (k0_pay1 (F := F), k0_pay2 (F := F)) := rfl

theorem fold_succ (v0 : Vec F S512x256 .f32) (v8 : Vec F S512x1 .i32) (w : Vec F S32000x256 .bf16) (k : Fin k0_t1_loop.trips) :
    fold v0 v8 w (k.val + 1)
      = (k0_pay4 v0 (fold v0 v8 w k.val).1 (chunk w k), k0_pay5 v0 v8 k (fold v0 v8 w k.val).2 (chunk w k)) := by
  rw [fold]; exact dif_pos k.isLt

/-- What the body stores: the closing payload of the carried pair after the last trip. -/
def bodyOut (v0 : Vec F S512x256 .f32) (v8 : Vec F S512x1 .i32) (w : Vec F S32000x256 .bf16) : FVec F S512x1 .f32 :=
  k0_pay6 (fold v0 v8 w 25).1 (fold v0 v8 w 25).2

end Cert.KernelIdeal.Fold

end
-- ==== Proof.KTrip.lean ====
/-
  The body's run, opened once: each trip of the loop loads its 1280 rows of the weight through the whole staging buffer and
  yields the two payloads of the carried pair, so the carried pair before trip n is the recursion `fold`; the one store of
  the body covers the output block with the closing payload of the pair after the last trip.
-/
import proofs.«401756_j22402549416286_2_alg».proof.Proof.Gen.KernelIdeal.Frame
import proofs.«401756_j22402549416286_2_alg».proof.Proof.KFold
import Idealize.ShloMosaic.Lib.WholeRead

set_option maxRecDepth 16384

noncomputable section

namespace Cert.KernelIdeal.Fold

open Cert.KernelIdeal Cert.KernelIdeal.Gen Idealize.ShloMosaic Idealize.ShloMosaic.TcCoe Idealize.ShloMosaic.Tactic Idealize.SL.Sem

variable {F : FTy → Type} [FloatOps F]

/-- One trip, the weight's staging buffer holding the contents that read `x1`: the two payloads over the trip's rows. -/
theorem tripR_eq (𝒱 : Variants) (bd : Option 𝒱.V) (c : Dev nD) (i : grid0.Coords) (arg1 : Memref sig .tc .vmem S512x256 .f32) (harg1 : arg1.IsWhole) (arg2 : Memref sig .tc .vmem S32000x256 .bf16) (harg2 : arg2.IsWhole) (arg3 : Memref sig .tc .vmem S512x1 .i32) (harg3 : arg3.IsWhole) (arg4 : Memref sig .tc .vmem S512x1 .f32) (harg4 : arg4.IsWhole)
    (v0 : Vec F S512x256 .f32) (v8 : Vec F S512x1 .i32) (x1 : Vec F S32000x256 .bf16) (k : Fin k0_t1_loop.trips)
    (acc : FVec F S512x1 .f32 × FVec F S512x1 .f32) :
    tripR_k0_t1 (F := F) 𝒱 c bd i arg1 harg1 arg2 harg2 arg3 harg3 arg4 harg4 v0 v8 (harg2.unread x1) k acc
      = (k0_pay4 v0 acc.1 (chunk x1 k), k0_pay5 v0 v8 k acc.2 (chunk x1 k)) := by
  unfold tripR_k0_t1 trip_k0_t1
  dsimp only
  rw [View.readAt_eq_ld, harg2.read_unread]
  rfl

/-- The carried pair before trip n is the recursion. -/
theorem st_eq_fold (𝒱 : Variants) (bd : Option 𝒱.V) (c : Dev nD) (i : grid0.Coords) (arg1 : Memref sig .tc .vmem S512x256 .f32) (harg1 : arg1.IsWhole) (arg2 : Memref sig .tc .vmem S32000x256 .bf16) (harg2 : arg2.IsWhole) (arg3 : Memref sig .tc .vmem S512x1 .i32) (harg3 : arg3.IsWhole) (arg4 : Memref sig .tc .vmem S512x1 .f32) (harg4 : arg4.IsWhole)
    (v0 : Vec F S512x256 .f32) (v8 : Vec F S512x1 .i32) (x1 : Vec F S32000x256 .bf16) (n : ℕ) (hn : n ≤ k0_t1_loop.trips) :
    st_k0_t1 (F := F) 𝒱 c bd i arg1 harg1 arg2 harg2 arg3 harg3 arg4 harg4 v0 v8 (harg2.unread x1) (k0_pay1 (F := F), k0_pay2 (F := F)) n = fold v0 v8 x1 n := by
  induction n with
  | zero => rfl
  | succ n ih =>
    have hlt : n < k0_t1_loop.trips := hn
    have e := st_k0_t1_succ (F := F) 𝒱 c bd i arg1 harg1 arg2 harg2 arg3 harg3 arg4 harg4 v0 v8 (harg2.unread x1) (k0_pay1 (F := F), k0_pay2 (F := F)) ⟨n, hlt⟩
    rw [show n + 1 = (⟨n, hlt⟩ : Fin k0_t1_loop.trips).val + 1 from rfl, e, ih (Nat.le_of_lt hlt), tripR_eq,
      fold_succ v0 v8 x1 ⟨n, hlt⟩]

/-- What the body leaves in the output's staging buffer. -/
theorem out_eq (c : Dev nD) (i : grid0.Coords) (arg1 : Memref sig .tc .vmem S512x256 .f32) (harg1 : arg1.IsWhole) (arg2 : Memref sig .tc .vmem S32000x256 .bf16) (harg2 : arg2.IsWhole) (arg3 : Memref sig .tc .vmem S512x1 .i32) (harg3 : arg3.IsWhole) (arg4 : Memref sig .tc .vmem S512x1 .f32) (harg4 : arg4.IsWhole)
    (x0 : Vec F S512x256 .f32) (x1 : Vec F S32000x256 .bf16) (x2 : Vec F S512x1 .i32) :
    out0_A_3 c i arg1 harg1 arg2 harg2 arg3 harg3 arg4 harg4 x0 x1 x2 = bodyOut x0 x2 x1 := by
  have hz : (![0, 0] : Fin 2 → Nat) = fun _ => 0 := by funext a; fin_cases a <;> rfl
  unfold out0_A_3
  rw [View.read_writes_eq_canon _ _ _ (cover0_A_3 c i arg1 harg1 arg2 harg2 arg3 harg3 arg4 harg4 x0 x1 x2)]
  unfold kernelRun0_A
  dsimp only
  rw [View.canon_unit_zero hz]
  simp only [View.readAt_eq_ld, harg1.read_unread, harg3.read_unread, View.ld_unit_zero (S := S512x256) hz,
    View.ld_unit_zero (S := S512x1) hz]
  rw [show Scf.trips (0#32) (Scalar.addi 0#32 25#32) 1#32 = 25 from by decide,
    st_eq_fold Variants.none none c i arg1 harg1 arg2 harg2 arg3 harg3 arg4 harg4 x0 x2 x1 25 (Nat.le_of_eq trips_eq.symm)]
  rfl

end Cert.KernelIdeal.Fold

end
-- ==== Proof.KPay.lean ====
/-
  The kernel body's payloads at the ideal instance, read at a row: each trip's matrix product is the logits of the loaded
  classes; the first carried column gains the row's sum of exp (s·logit) over them; the second gains the logit at the class
  equal to the row's label, if it is among them; the closing payload is 0 minus the loss formula of the two carried columns.
-/
import proofs.«401756_j22402549416286_2_alg».proof.Proof.KFold
import proofs.«401756_j22402549416286_2_alg».proof.Proof.Spec
import Idealize.ShloMosaic.PureOps.Ideal.Laws
import Idealize.ShloMosaic.Lib.Pipeline.Value
import Idealize.ShloMosaic.Lib.ValueLayout

noncomputable section

open scoped BigOperators

namespace Cert.KernelIdeal.Fold

open Cert.KernelIdeal Cert.KernelIdeal.Gen Idealize.ShloMosaic Idealize.ShloMosaic.ValueIdx

/-! ## The layout operations of the payloads, read at an index given by coordinates -/

/-- A length-512 vector cast to a column reads, at (p, u), the operand at p. -/
theorem shapeCast_col_apply {α : Type} (x : S512.Idx → α) (h : S512.ShapeCasts S512x1) (p : Fin 512) (u : Fin 1) :
    shapeCast S512x1 x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column broadcast along its unit axis reads, at (p, c), the column at p. -/
theorem broadcastTo_col_apply {α : Type} {n : ℕ} (v : S512x1.Idx → α) (h : S512x1.Broadcasts ⟨2, ![512, n]⟩)
    (p : Fin 512) (c : Fin n) : broadcastTo ⟨2, ![512, n]⟩ v h (ix2 p c) = v (ix2 p (0 : Fin 1)) := by
  refine broadcastTo_apply v h (ix2 p c) (ix2 p (0 : Fin 1)) fun ax => ?_
  match ax with
  | ⟨0, _⟩ => rfl
  | ⟨1, _⟩ => rfl

/-- The sum over the second axis of a two-axis vector, read at row p, is the sum of the row's entries. -/
theorem rowSum_apply {n : ℕ} (src : FVec Ideal ⟨2, ![512, n]⟩ .f32) (acc : BitVec (FTy.bits .f32))
    (h : (⟨2, ![512, n]⟩ : Shape).Reduces [1] S512) (hφ : FKind.Formats .f32) (hacc : acc = FKind.add.neutral .f32 hφ)
    (p : Fin 512) :
    multiReduction (F := Ideal) .add [1] S512 src acc h hφ hacc (ix1 p) = ∑ k : Fin n, src (ix2 p k) := by
  rw [Ideal.multiReduction_add_single]
  refine Finset.sum_congr rfl fun k _ => congrArg src (funext fun a => Fin.ext ?_)
  match a with
  | ⟨0, _⟩ => rfl
  | ⟨1, _⟩ => rfl

/-! ## The matrix product's operand indices: both operands contract their second axis -/

theorem lhs_dot_0 (i : S512x1280.Idx) (q : dot_S512x256_S1280x256_S512x1280_1_1_0_0_n_n.contr.Idx) :
    (dot_S512x256_S1280x256_S512x1280_1_1_0_0_n_n.lhsIdx i q 0).val = (i 0).val := by
  unfold DotDims.lhsIdx
  rw [dif_neg (show ¬(0 : Fin S512x256.rank) ∈ dot_S512x256_S1280x256_S512x1280_1_1_0_0_n_n.lhsBatch by decide), dif_pos (show (0 : Fin S512x256.rank) ∈ dot_S512x256_S1280x256_S512x1280_1_1_0_0_n_n.lhsNonContracting by decide)]
  rfl
theorem lhs_dot_1 (i : S512x1280.Idx) (q : dot_S512x256_S1280x256_S512x1280_1_1_0_0_n_n.contr.Idx) :
    (dot_S512x256_S1280x256_S512x1280_1_1_0_0_n_n.lhsIdx i q 1).val = (q ⟨0, by decide⟩).val :=
  dot_S512x256_S1280x256_S512x1280_1_1_0_0_n_n.lhsIdx_val_of_single rfl i q
theorem rhs_dot_0 (i : S512x1280.Idx) (q : dot_S512x256_S1280x256_S512x1280_1_1_0_0_n_n.contr.Idx) :
    (dot_S512x256_S1280x256_S512x1280_1_1_0_0_n_n.rhsIdx i q 0).val = (i 1).val := by
  unfold DotDims.rhsIdx
  rw [dif_neg (show ¬(0 : Fin S1280x256.rank) ∈ dot_S512x256_S1280x256_S512x1280_1_1_0_0_n_n.rhsBatch by decide), dif_pos (show (0 : Fin S1280x256.rank) ∈ dot_S512x256_S1280x256_S512x1280_1_1_0_0_n_n.rhsNonContracting by decide)]
  rfl
theorem rhs_dot_1 (i : S512x1280.Idx) (q : dot_S512x256_S1280x256_S512x1280_1_1_0_0_n_n.contr.Idx) :
    (dot_S512x256_S1280x256_S512x1280_1_1_0_0_n_n.rhsIdx i q 1).val = (q ⟨0, by decide⟩).val :=
  dot_S512x256_S1280x256_S512x1280_1_1_0_0_n_n.rhsIdx_val_of_single rfl i q

/-- The matrix product into the zero accumulator at (p, j): row p of the left operand against row j of the right one. -/
theorem dot_apply (A : FVec Ideal S512x256 .bf16) (B : FVec Ideal S1280x256 .bf16) (p : Fin 512) (j : Fin 1280) :
    matmul dot_S512x256_S1280x256_S512x1280_1_1_0_0_n_n none A B (constant (F := Ideal) S512x1280 .f32 0x00000000#32) (ix2 p j)
      = ∑ q : Fin 256, A (ix2 p q) * B (ix2 j q) := by
  simp only [matmul]
  rw [Ideal.matmul_constant_zero_apply, ← Equiv.sum_comp (ValueIdx.contrEquiv1 dot_S512x256_S1280x256_S512x1280_1_1_0_0_n_n 256 rfl rfl).symm]
  refine Finset.sum_congr rfl fun k _ => ?_
  have hk := ValueIdx.contrEquiv1_symm_val dot_S512x256_S1280x256_S512x1280_1_1_0_0_n_n 256 rfl rfl k
  have el : dot_S512x256_S1280x256_S512x1280_1_1_0_0_n_n.lhsIdx (ix2 p j) ((ValueIdx.contrEquiv1 dot_S512x256_S1280x256_S512x1280_1_1_0_0_n_n 256 rfl rfl).symm k) = ix2 p k := funext fun a => Fin.ext (by
    match a with
    | ⟨0, _⟩ => exact lhs_dot_0 _ _
    | ⟨1, _⟩ => exact (lhs_dot_1 _ _).trans hk)
  have er : dot_S512x256_S1280x256_S512x1280_1_1_0_0_n_n.rhsIdx (ix2 p j) ((ValueIdx.contrEquiv1 dot_S512x256_S1280x256_S512x1280_1_1_0_0_n_n 256 rfl rfl).symm k) = ix2 j k := funext fun a => Fin.ext (by
    match a with
    | ⟨0, _⟩ => exact rhs_dot_0 _ _
    | ⟨1, _⟩ => exact (rhs_dot_1 _ _).trans hk)
  rw [el, er]

/-! ## The words of the label comparison -/

/-- The class number of column j of trip k, computed in 32-bit words, is the word of the number 1280·k + j. -/
theorem classWord_eq (k j : ℕ) :
    IntOp.addi (Scalar.muli (Scf.iv 0#32 1#32 k) 1280#32) (BitVec.ofNat 32 j) = BitVec.ofNat 32 (1280 * k + j) := by
  unfold IntOp.addi Scalar.muli IntOp.muli Scf.iv
  rw [BitVec.mul_one, BitVec.zero_add, BitVec.ofNat_add, BitVec.ofNat_mul, BitVec.mul_comm]

/-- Comparing the word of a number below 2^32 with a word for equality decides the equation of the naturals. -/
theorem cmpi_eq_ofNat (n : ℕ) (hn : n < 2 ^ 32) (x : BitVec 32) :
    IntOp.cmpi .eq (BitVec.ofNat 32 n) x = if n = x.toNat then 1#1 else 0#1 := by
  have hto : (BitVec.ofNat 32 n).toNat = n := by rw [BitVec.toNat_ofNat]; exact Nat.mod_eq_of_lt hn
  show BitVec.ofBool (BitVec.ofNat 32 n == x) = _
  by_cases h : n = x.toNat
  · have hx : BitVec.ofNat 32 n = x := BitVec.eq_of_toNat_eq (hto.trans h)
    rw [if_pos h, hx, beq_self_eq_true]
    rfl
  · have hx : BitVec.ofNat 32 n ≠ x := fun e => h (by rw [← e, hto])
    rw [if_neg h, beq_eq_false_iff_ne.mpr hx]
    rfl

/-- A select on a decided condition is the `if`. -/
theorem select_ite {α : Type} (c : Prop) [Decidable c] (a b : α) :
    Scalar.select (if c then 1#1 else 0#1) a b = if c then a else b := by
  by_cases h : c
  · rw [if_pos h, if_pos h]; exact select_one a b
  · rw [if_neg h, if_neg h]; exact select_zero a b

/-! ## The six payloads at an index -/

/-- Both carried columns start at zero. -/
theorem pay1_apply (i : S512x1.Idx) : k0_pay1 (F := Ideal) i = 0 := by
  unfold k0_pay1
  show Ideal.ofBits .f32 0x00000000#32 = 0
  exact Ideal.ofBits_zero_f32
theorem pay2_apply (i : S512x1.Idx) : k0_pay2 (F := Ideal) i = 0 := by
  unfold k0_pay2
  show Ideal.ofBits .f32 0x00000000#32 = 0
  exact Ideal.ofBits_zero_f32

/-- A trip's matrix product at (p, j): the logit of row p of the block against row j of the loaded weight rows. -/
theorem pay3_apply (v0 : FVec Ideal S512x256 .f32) (v32 : FVec Ideal S1280x256 .bf16) (p : Fin 512) (j : Fin 1280) :
    k0_pay3 (F := Ideal) v0 v32 (ix2 p j)
      = Cert.CosLoss.logit (fun q => v0 (ix2 p q)) (fun q => v32 (ix2 j q)) := by
  unfold k0_pay3
  dsimp only
  rw [dot_apply]
  unfold Cert.CosLoss.logit Cert.CosLoss.rowNorm
  refine Finset.sum_congr rfl fun q _ => ?_
  rw [shapeCast_self, truncf_apply, divf_apply, broadcastTo_col_apply]
  show Ideal.div (v0 (ix2 p q)) (Ideal.sqrt (shapeCast S512x1 _ shapeCasts_S512_S512x1 (ix2 p (0 : Fin 1)))) * _ = _
  rw [shapeCast_col_apply]
  have hs := rowSum_apply (mulf v0 v0) 0x00000000#32 reduces_S512x256_S512 (.inl rfl) rfl p
  exact congrArg (fun t => Ideal.div (v0 (ix2 p q)) (Ideal.sqrt t) * v32 (ix2 j q)) hs

/-- The first carried column after a trip: the row's sum of exp (s·logit) over the loaded classes is added. -/
theorem pay4_apply (v0 : FVec Ideal S512x256 .f32) (acc : FVec Ideal S512x1 .f32) (v32 : FVec Ideal S1280x256 .bf16) (p : Fin 512) :
    k0_pay4 (F := Ideal) v0 acc v32 (ix2 p (0 : Fin 1))
      = acc (ix2 p (0 : Fin 1))
        + ∑ j : Fin 1280, Ideal.exp (Cert.CosLoss.s30 * Cert.CosLoss.logit (fun q => v0 (ix2 p q)) (fun q => v32 (ix2 j q))) := by
  unfold k0_pay4
  dsimp only
  rw [addf_apply, shapeCast_col_apply]
  have hs := rowSum_apply (exp (mulf (broadcast S512x1280 (Scalar.ofBits (F := Ideal) .f32 0x41F00000#32)) (k0_pay3 (F := Ideal) v0 v32)))
    0x00000000#32 reduces_S512x1280_S512 (.inl rfl) rfl p
  refine (congrArg (fun t => acc (ix2 p (0 : Fin 1)) + t) hs).trans ?_
  refine congrArg (fun t => acc (ix2 p (0 : Fin 1)) + t) (Finset.sum_congr rfl fun j _ => ?_)
  show Ideal.exp (Ideal.ofBits .f32 0x41F00000#32 * k0_pay3 (F := Ideal) v0 v32 (ix2 p j)) = _
  rw [pay3_apply]
  rfl

/-- The second carried column after trip k: the logit at the loaded class whose number 1280·k + j is the row's label word
    (read unsigned) is added, zero for the other classes. -/
theorem pay5_apply (v0 : FVec Ideal S512x256 .f32) (v8 : IVec S512x1 32) (k : Fin k0_t1_loop.trips) (acc : FVec Ideal S512x1 .f32)
    (v32 : FVec Ideal S1280x256 .bf16) (p : Fin 512) :
    k0_pay5 (F := Ideal) v0 v8 k acc v32 (ix2 p (0 : Fin 1))
      = acc (ix2 p (0 : Fin 1))
        + ∑ j : Fin 1280, (if 1280 * k.val + j.val = (v8 (ix2 p (0 : Fin 1))).toNat
            then Cert.CosLoss.logit (fun q => v0 (ix2 p q)) (fun q => v32 (ix2 j q)) else 0) := by
  unfold k0_pay5
  dsimp only
  rw [addf_apply, shapeCast_col_apply]
  refine (congrArg (fun t => acc (ix2 p (0 : Fin 1)) + t)
    (rowSum_apply _ 0x00000000#32 reduces_S512x1280_S512 (.inl rfl) rfl p)).trans ?_
  refine congrArg (fun t => acc (ix2 p (0 : Fin 1)) + t) (Finset.sum_congr rfl fun j _ => ?_)
  have hlt : 1280 * k.val + j.val < 2 ^ 32 := by
    have := k.isLt; have := trips_eq; have := j.isLt; omega
  rw [select_apply, pay3_apply]
  show Scalar.select (IntOp.cmpi .eq (IntOp.addi (Scalar.muli (Scf.iv 0#32 1#32 k.val) 1280#32)
      (iota .tc S512x1280 32 [1] iota_S512x1280_d1_w32 (ix2 p j)))
      (broadcastTo S512x1280 (shapeCast S512x1 v8 shapeCasts_S512x1_S512x1) broadcasts_S512x1_S512x1280 (ix2 p j))) _
      (Ideal.ofBits .f32 0x00000000#32) = _
  rw [iota_single_apply, broadcastTo_col_apply, shapeCast_self, Ideal.ofBits_zero_f32]
  show Scalar.select (IntOp.cmpi .eq (IntOp.addi (Scalar.muli (Scf.iv 0#32 1#32 k.val) 1280#32) (BitVec.ofNat 32 j.val))
      (v8 (ix2 p (0 : Fin 1)))) _ 0 = _
  rw [classWord_eq, cmpi_eq_ofNat _ hlt, select_ite]

/-- The closing payload: 0 minus the loss formula of the carried sum of exponentials `a` and the carried label logit `b`. -/
theorem pay6_apply (a b : FVec Ideal S512x1 .f32) (i : S512x1.Idx) :
    k0_pay6 (F := Ideal) a b i
      = 0 - (Cert.CosLoss.s30 * (b i - Cert.CosLoss.m04)
          - Ideal.log (Ideal.exp (Cert.CosLoss.s30 * (b i - Cert.CosLoss.m04)) + (a i - Ideal.exp (Cert.CosLoss.s30 * b i)))) := by
  unfold k0_pay6
  show Ideal.ofBits .f32 0x00000000#32 - _ = _
  rw [Ideal.ofBits_zero_f32]
  rfl

end Cert.KernelIdeal.Fold

end
-- ==== Proof.KFoldValue.lean ====
/-
  The body's stored block at the ideal instance, row by row: 0 minus the row's loss.
-/
import proofs.«401756_j22402549416286_2_alg».proof.Proof.KFold
import proofs.«401756_j22402549416286_2_alg».proof.Proof.KPay
import proofs.«401756_j22402549416286_2_alg».proof.Proof.Spec
import Idealize.ShloMosaic.PureOps.Ideal.Laws
import Idealize.ShloMosaic.Lib.Pipeline.Value
import Idealize.ShloMosaic.Lib.ValueLayout
import Mathlib.Algebra.BigOperators.Group.Finset.Basic
import Mathlib.Data.Fintype.BigOperators

noncomputable section

open scoped BigOperators

namespace Cert.KernelIdeal.Fold

open Cert.KernelIdeal Cert.KernelIdeal.Gen Idealize.ShloMosaic Idealize.ShloMosaic.ValueIdx

/-- The logit of row p of the block against class number c of the weight, zero past the class range. -/
def classLogit (v0 : FVec Ideal S512x256 .f32) (w : FVec Ideal S32000x256 .bf16) (p : Fin 512) (c : ℕ) : EReal :=
  if h : c < 32000 then
    Cert.CosLoss.logit (fun q => v0 (ix2 p q)) (fun q => w (ix2 (⟨c, h⟩ : Fin 32000) q))
  else 0

/-- Inside the class range the class logit is the logit against that weight row. -/
theorem classLogit_of_lt (v0 : FVec Ideal S512x256 .f32) (w : FVec Ideal S32000x256 .bf16) (p : Fin 512) (c : ℕ)
    (h : c < 32000) :
    classLogit v0 w p c
      = Cert.CosLoss.logit (fun q => v0 (ix2 p q)) (fun q => w (ix2 (⟨c, h⟩ : Fin 32000) q)) := by
  unfold classLogit
  exact dif_pos h

/-- The logit against row j of trip k's load is the class logit of class 1280·k + j. -/
theorem logit_chunk (v0 : FVec Ideal S512x256 .f32) (w : FVec Ideal S32000x256 .bf16) (p : Fin 512)
    (k : Fin k0_t1_loop.trips) (j : Fin 1280) :
    Cert.CosLoss.logit (fun q => v0 (ix2 p q)) (fun q => chunk (F := Ideal) w k (ix2 j q))
      = classLogit v0 w p (1280 * k.val + j.val) := by
  have hk : k.val < 25 := by have := k.isLt; have := trips_eq; omega
  have hc : 1280 * k.val + j.val < 32000 := by have := j.isLt; omega
  rw [classLogit_of_lt v0 w p _ hc]
  congr 1
  funext q
  exact chunk_apply (F := Ideal) w k j q

/-- The first carried column at row p before trip n: the sum of exp (s·logit) over the classes below 1280·n. -/
theorem fold_fst_apply (v0 : FVec Ideal S512x256 .f32) (v8 : IVec S512x1 32) (w : FVec Ideal S32000x256 .bf16)
    (p : Fin 512) (n : ℕ) (hn : n ≤ 25) :
    (fold (F := Ideal) v0 v8 w n).1 (ix2 p (0 : Fin 1))
      = ∑ c ∈ Finset.range (1280 * n), Ideal.exp (Cert.CosLoss.s30 * classLogit v0 w p c) := by
  induction n with
  | zero =>
    rw [fold_zero]
    show k0_pay1 (F := Ideal) (ix2 p (0 : Fin 1)) = _
    rw [pay1_apply]
    simp
  | succ n ih =>
    have h : n < k0_t1_loop.trips := by rw [trips_eq]; omega
    have hs := fold_succ (F := Ideal) v0 v8 w ⟨n, h⟩
    rw [show (⟨n, h⟩ : Fin k0_t1_loop.trips).val + 1 = n + 1 from rfl] at hs
    rw [hs]
    show k0_pay4 (F := Ideal) v0 (fold (F := Ideal) v0 v8 w n).1 (chunk (F := Ideal) w ⟨n, h⟩) (ix2 p (0 : Fin 1)) = _
    rw [pay4_apply, ih (by omega)]
    rw [show 1280 * (n + 1) = 1280 * n + 1280 by ring, Finset.sum_range_add]
    congr 1
    rw [← Fin.sum_univ_eq_sum_range (fun j => Ideal.exp (Cert.CosLoss.s30 * classLogit v0 w p (1280 * n + j))) 1280]
    apply Finset.sum_congr rfl
    intro j _
    rw [logit_chunk]

/-- The second carried column at row p before trip n: the class logit at the label, if the label is below 1280·n. -/
theorem fold_snd_apply (v0 : FVec Ideal S512x256 .f32) (v8 : IVec S512x1 32) (w : FVec Ideal S32000x256 .bf16)
    (p : Fin 512) (n : ℕ) (hn : n ≤ 25) :
    (fold (F := Ideal) v0 v8 w n).2 (ix2 p (0 : Fin 1))
      = ∑ c ∈ Finset.range (1280 * n),
          (if c = (v8 (ix2 p (0 : Fin 1))).toNat then classLogit v0 w p c else 0) := by
  induction n with
  | zero =>
    rw [fold_zero]
    show k0_pay2 (F := Ideal) (ix2 p (0 : Fin 1)) = _
    rw [pay2_apply]
    simp
  | succ n ih =>
    have h : n < k0_t1_loop.trips := by rw [trips_eq]; omega
    have hs := fold_succ (F := Ideal) v0 v8 w ⟨n, h⟩
    rw [show (⟨n, h⟩ : Fin k0_t1_loop.trips).val + 1 = n + 1 from rfl] at hs
    rw [hs]
    show k0_pay5 (F := Ideal) v0 v8 ⟨n, h⟩ (fold (F := Ideal) v0 v8 w n).2 (chunk (F := Ideal) w ⟨n, h⟩) (ix2 p (0 : Fin 1)) = _
    rw [pay5_apply, ih (by omega)]
    rw [show 1280 * (n + 1) = 1280 * n + 1280 by ring, Finset.sum_range_add]
    congr 1
    rw [← Fin.sum_univ_eq_sum_range
      (fun j => if 1280 * n + j = (v8 (ix2 p (0 : Fin 1))).toNat then classLogit v0 w p (1280 * n + j) else 0) 1280]
    apply Finset.sum_congr rfl
    intro j _
    rw [logit_chunk]

/-- Over the whole class range the sum of exp (s·class logit) is the sum over the weight's rows. -/
theorem sum_exp_classes (v0 : FVec Ideal S512x256 .f32) (w : FVec Ideal S32000x256 .bf16) (p : Fin 512) :
    ∑ c ∈ Finset.range 32000, Ideal.exp (Cert.CosLoss.s30 * classLogit v0 w p c)
      = ∑ c : Fin 32000,
          Ideal.exp (Cert.CosLoss.s30 * Cert.CosLoss.logit (fun q => v0 (ix2 p q)) (fun q => w (ix2 c q))) := by
  rw [← Fin.sum_univ_eq_sum_range (fun c => Ideal.exp (Cert.CosLoss.s30 * classLogit v0 w p c)) 32000]
  apply Finset.sum_congr rfl
  intro c _
  rw [classLogit_of_lt v0 w p c.val c.isLt]

/-- Over the whole class range exactly one class is the label: the sum is the logit against the label's weight row. -/
theorem sum_label_class (v0 : FVec Ideal S512x256 .f32) (w : FVec Ideal S32000x256 .bf16) (p : Fin 512) (l : ℕ)
    (hl : l < 32000) :
    ∑ c ∈ Finset.range 32000, (if c = l then classLogit v0 w p c else 0)
      = Cert.CosLoss.logit (fun q => v0 (ix2 p q)) (fun q => w (ix2 (⟨l, hl⟩ : Fin 32000) q)) := by
  rw [Finset.sum_ite_eq' (Finset.range 32000) l (fun c => classLogit v0 w p c)]
  rw [if_pos (Finset.mem_range.mpr hl), classLogit_of_lt v0 w p l hl]

/-- Row p of the stored block is 0 minus the loss of row p of the input block, against the whole weight, at the row's
    label (a word in the class range, read unsigned). -/
theorem bodyOut_apply (v0 : FVec Ideal S512x256 .f32) (v8 : IVec S512x1 32) (w : FVec Ideal S32000x256 .bf16) (p : Fin 512)
    (hlab : (v8 (ix2 p (0 : Fin 1))).toNat < 32000) :
    bodyOut (F := Ideal) v0 v8 w (ix2 p (0 : Fin 1))
      = 0 - Cert.CosLoss.rowLoss (fun k => v0 (ix2 p k)) (fun c k => w (ix2 c k)) ⟨(v8 (ix2 p (0 : Fin 1))).toNat, hlab⟩ := by
  unfold bodyOut
  rw [pay6_apply, fold_fst_apply v0 v8 w p 25 (le_refl 25), fold_snd_apply v0 v8 w p 25 (le_refl 25)]
  rw [show 1280 * 25 = 32000 from rfl, sum_exp_classes v0 w p, sum_label_class v0 w p _ hlab]
  rfl

end Cert.KernelIdeal.Fold

end
-- ==== Proof.KValue.lean ====
/-
  The kernel's run, read: the pipeline's output array ends holding, at row r, 0 minus the loss of row r of the batch
  (point t of the grid writes rows 512·t … 512·t + 511, from rows 512·t … of the batch and of the labels and the whole
  weight), and the host's mean over that column is the specification's result.
-/
import proofs.«401756_j22402549416286_2_alg».proof.Proof.Gen.KernelIdeal.Frame
import proofs.«401756_j22402549416286_2_alg».proof.Proof.KTrip
import proofs.«401756_j22402549416286_2_alg».proof.Proof.KFoldValue
import proofs.«401756_j22402549416286_2_alg».proof.Proof.SpecLaws
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.KValue

open Cert.KernelIdeal Cert.KernelIdeal.Gen Cert.KernelIdeal.Fold Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The three argument arrays as launched. -/
abbrev xA (c : Dev nD) : S8192x256.Idx → EReal := m ((c : Thread nD τ).loc main_arg0)
abbrev labA (c : Dev nD) : S8192.Idx → BitVec 32 := m ((c : Thread nD τ).loc main_arg1)
abbrev wA (c : Dev nD) : S32000x256.Idx → EReal := m ((c : Thread nD τ).loc main_arg2)

/-! ## The arrays the region finds -/

/-- The resident weight the region finds is the weight as launched: the host's change of format is the identity on
    extended reals. -/
theorem V_weight (c : Dev nD) (i : S32000x256.Idx) : (V m c main_v1 : S32000x256.Idx → EReal) i = wA m c i := by
  have e : @Eq (S32000x256.Idx → EReal) (V m c main_v1) (truncf (F := Ideal) .bf16 (wA m c) bitsLt_bf16_f32) := by
    show StableHlo.after hostOps0 (fun b => m (c, b)) (Proc.devRef .tc main_v1) = _
    after_results
  exact congrFun e i

/-- The label column the region finds is the labels as launched, row by row. -/
theorem V_labels (c : Dev nD) (r : Fin 8192) :
    (V m c main_v0 : S8192x1.Idx → BitVec 32) (ix2 r (0 : Fin 1)) = labA m c (ix1 r) := by
  have e : @Eq (S8192x1.Idx → BitVec 32) (V m c main_v0) (shapeCast S8192x1 (labA m c) shapeCasts_S8192_S8192x1) := by
    show StableHlo.after hostOps0 (fun b => m (c, b)) (Proc.devRef .tc main_v0) = _
    after_results; rfl
  refine (congrFun e _).trans ?_
  exact shapeCast_apply (labA m c) shapeCasts_S8192_S8192x1 (ix2 r (0 : Fin 1)) (ix1 r) (by
    rw [Shape.rowMajor_val_one, Shape.rowMajor_val_two]; show r.val = r.val * 1 + 0; omega)

/-! ## The windows' blocks -/

/-- The grid has 16 points. -/
theorem t_lt (t : Fin cfg0.N) : t.val < 16 := by
  have h : t.val < grid0.N := t.isLt
  rw [N_0] at h; exact h

/-- The printed index maps over the grid: the batch, the labels and the output move with the point along the rows, the
    weight stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Point t's blocks of the batch, the weight and the labels. -/
abbrev xblk (c : Dev nD) (t : Fin cfg0.N) : Vec Ideal S512x256 .f32 := iblk m c 0 t
abbrev wblk (c : Dev nD) (t : Fin cfg0.N) : Vec Ideal S32000x256 .bf16 := iblk m c 1 t
abbrev lblk (c : Dev nD) (t : Fin cfg0.N) : Vec Ideal S512x1 .i32 := iblk m c 2 t

/-- Row p of point t's batch block is row 512·t + p of the batch. -/
theorem xblk_apply (c : Dev nD) (t : Fin cfg0.N) (p : Fin 512) (q : Fin 256) :
    xblk m c t (ix2 p q) = xA m c (ix2 (⟨512 * t.val + p.val, by have := t_lt t; omega⟩ : Fin 8192) q) := by
  show V m c main_arg0 (((cfg0.win 0).blk t).view.emb (ix2 p q)) = _
  refine (congrFun (V_main_arg0 m c) _).trans ?_
  refine congrArg (xA m c) (funext fun a => Fin.ext ?_)
  obtain ⟨e0, e1, -⟩ := idx_facts t
  match a with
  | ⟨0, _⟩ => show win0_0.index t (0 : Fin 2) * 512 + 1 * p.val = 512 * t.val + p.val; omega
  | ⟨1, _⟩ => show win0_0.index t (1 : Fin 2) * 256 + 1 * q.val = q.val; omega

/-- Every point's weight block is the whole weight. -/
theorem wblk_apply (c : Dev nD) (t : Fin cfg0.N) (j : Fin 32000) (q : Fin 256) :
    wblk m c t (ix2 j q) = wA m c (ix2 j q) := by
  show V m c main_v1 (((cfg0.win 1).blk t).view.emb (ix2 j q)) = _
  refine Eq.trans ?_ (V_weight m c (ix2 j q))
  refine congrArg (V m c main_v1) (funext fun a => Fin.ext ?_)
  obtain ⟨-, -, e2, e3, -⟩ := idx_facts t
  match a with
  | ⟨0, _⟩ => show win0_1.index t (0 : Fin 2) * 32000 + 1 * j.val = j.val; omega
  | ⟨1, _⟩ => show win0_1.index t (1 : Fin 2) * 256 + 1 * q.val = q.val; omega

/-- Row p of point t's label block is label 512·t + p. -/
theorem lblk_apply (c : Dev nD) (t : Fin cfg0.N) (p : Fin 512) :
    lblk m c t (ix2 p (0 : Fin 1)) = labA m c (ix1 (⟨512 * t.val + p.val, by have := t_lt t; omega⟩ : Fin 8192)) := by
  show V m c main_v0 (((cfg0.win 2).blk t).view.emb (ix2 p (0 : Fin 1))) = _
  refine Eq.trans ?_ (V_labels m c _)
  refine congrArg (V m c main_v0) (funext fun a => Fin.ext ?_)
  obtain ⟨-, -, -, -, e4, e5, -⟩ := idx_facts t
  match a with
  | ⟨0, _⟩ => show win0_2.index t (0 : Fin 2) * 512 + 1 * p.val = 512 * t.val + p.val; omega
  | ⟨1, _⟩ => show win0_2.index t (1 : Fin 2) * 1 + 1 * 0 = 0; omega

/-- Row p of point t's output block is row 512·t + p of the output column. -/
theorem oemb (t : Fin cfg0.N) (p : Fin 512) :
    ((cfg0.win 3).blk t).view.emb (ix2 p (0 : Fin 1))
      = ix2 (⟨512 * t.val + p.val, by have := t_lt t; omega⟩ : Fin 8192) (0 : Fin 1) := by
  funext a; apply Fin.ext
  obtain ⟨-, -, -, -, -, -, e6, e7⟩ := idx_facts t
  match a with
  | ⟨0, _⟩ => show win0_3.index t (0 : Fin 2) * 512 + 1 * p.val = 512 * t.val + p.val; omega
  | ⟨1, _⟩ => show win0_3.index t (1 : Fin 2) * 1 + 1 * 0 = 0; omega

/-! ## The output column -/

/-- What the output column ends holding: at row r, 0 minus the loss of row r. -/
def G (c : Dev nD) : S8192x1.Idx → EReal := fun i =>
  0 - Cert.CosLoss.lossAt (xA m c) (labA m c) (wA m c) ⟨(i 0).val, idx2_lt0 i⟩

/-- Row p of what point t's body stores is that value at row 512·t + p. -/
theorem body_row (hlab : ∀ c i, (labA m c i).toNat < 32000) (c : Dev nD) (t : Fin cfg0.N) (p : Fin 512) :
    bodyOut (F := Ideal) (xblk m c t) (lblk m c t) (wblk m c t) (ix2 p (0 : Fin 1))
      = G m c (ix2 (⟨512 * t.val + p.val, by have := t_lt t; omega⟩ : Fin 8192) (0 : Fin 1)) := by
  have hl : (lblk m c t (ix2 p (0 : Fin 1))).toNat < 32000 := by rw [lblk_apply]; exact hlab c _
  rw [bodyOut_apply (xblk m c t) (lblk m c t) (wblk m c t) p hl]
  unfold G Cert.CosLoss.lossAt
  have e1 : (fun k => xblk m c t (ix2 p k))
      = fun k => xA m c (ix2 (⟨512 * t.val + p.val, by have := t_lt t; omega⟩ : Fin 8192) k) :=
    funext fun k => xblk_apply m c t p k
  have e2 : (fun j k => wblk m c t (ix2 j k)) = fun j k => wA m c (ix2 j k) :=
    funext fun j => funext fun k => wblk_apply m c t j k
  have e3 : (⟨(lblk m c t (ix2 p (0 : Fin 1))).toNat, hl⟩ : Fin 32000)
      = Cert.CosLoss.labelOf (labA m c) (⟨512 * t.val + p.val, by have := t_lt t; omega⟩ : Fin 8192) := by
    apply Fin.ext
    show (lblk m c t (ix2 p (0 : Fin 1))).toNat
      = min (labA m c (ix1 (⟨512 * t.val + p.val, by have := t_lt t; omega⟩ : Fin 8192))).toNat 31999
    rw [lblk_apply]
    have := hlab c (ix1 (⟨512 * t.val + p.val, by have := t_lt t; omega⟩ : Fin 8192))
    omega
  rw [e1, e2, e3]

/-- What point t writes back is block t of that column. -/
theorem flushed_eq (hlab : ∀ c i, (labA m c i).toNat < 32000) (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold outsAt0
  rw [out_eq]
  funext j
  have h1 : (j 1).val < 1 := (j 1).isLt
  have hj : j = ix2 (⟨(j 0).val, (j 0).isLt⟩ : Fin 512) (0 : Fin 1) := by
    funext a; apply Fin.ext
    match a with
    | ⟨0, _⟩ => rfl
    | ⟨1, _⟩ => show (j 1).val = 0; omega
  rw [hj]
  show bodyOut (F := Ideal) (xblk m c t) (lblk m c t) (wblk m c t) (ix2 (⟨(j 0).val, (j 0).isLt⟩ : Fin 512) (0 : Fin 1))
    = G m c (((cfg0.win 3).blk t).view.emb (ix2 (⟨(j 0).val, (j 0).isLt⟩ : Fin 512) (0 : Fin 1)))
  rw [oemb]
  exact body_row m hlab c t _

/-- An index of the column is in point t's block iff its row is among the block's 512. -/
theorem mem_blk (t : Fin cfg0.N) (i : S8192x1.Idx) :
    i ∈ ((cfg0.win 3).blk t).view.set ↔ ∀ a : Fin 2, win0_3.index t a * S512x1.size a ≤ (i a).val
      ∧ (i a).val < win0_3.index t a * S512x1.size a + S512x1.size a := by
  show i ∈ ((View.whole main_v2).slice (win0_3.rect t)).set ↔ _
  rw [View.set_slice_whole, Rect.mem_set_unit]
  exact Iff.rfl

/-- The 16 blocks cover the column: row r is in block r / 512. -/
theorem cover (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  have hN : (i 0).val / 512 < cfg0.N := by show _ < grid0.N; rw [N_0]; omega
  refine ⟨⟨(i 0).val / 512, hN⟩, flush0_3 _, ?_⟩
  rw [mem_blk]
  obtain ⟨-, -, -, -, -, -, e6, e7⟩ := idx_facts ⟨(i 0).val / 512, hN⟩
  intro a
  match a with
  | ⟨0, _⟩ =>
    show win0_3.index ⟨(i 0).val / 512, hN⟩ (0 : Fin 2) * 512 ≤ (i 0).val
      ∧ (i 0).val < win0_3.index ⟨(i 0).val / 512, hN⟩ (0 : Fin 2) * 512 + 512
    rw [e6]; show (i 0).val / 512 * 512 ≤ (i 0).val ∧ (i 0).val < (i 0).val / 512 * 512 + 512; omega
  | ⟨1, _⟩ =>
    show win0_3.index ⟨(i 0).val / 512, hN⟩ (1 : Fin 2) * 1 ≤ (i 1).val
      ∧ (i 1).val < win0_3.index ⟨(i 0).val / 512, hN⟩ (1 : Fin 2) * 1 + 1
    rw [e7]; omega

/-- The output column after the run. -/
theorem final (hlab : ∀ c i, (labA m c i).toNat < 32000) (c : Dev nD) : (dats m 0 c).arrAt 3 cfg0.N = G m c :=
  (dats m 0 c).arrAt_eq_of_cover 3 (G m c) (fun t _ => flushed_eq m hlab c t) cover

/-! ## The host's mean over the column -/

/-- The program's result buffer after the run: the mean of the column, the specification's result. -/
theorem tail_eq (hlab : ∀ c i, (labA m c i).toNat < 32000) (c : Dev nD) :
    @Eq (S_.Idx → EReal) (Pipeline.afterTail₀ cfgs (dats m) 0 (V0 m) [hostOps1] c main_v4)
      (fun _ => Cert.CosLoss.result (xA m c) (labA m c) (wA m c)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v2)
      = G m c :=
    (Pipeline.withArrays_arr spec0 launch0.win.arr_inj c _ _ 3).trans (final m hlab c)
  rw [hw]
  funext j
  show Ideal.div (Host.reduceAdd (F := Ideal) (G m c) (constant (F := Ideal) S_ .f32 0#32) reducesTo_S8192x1_S_d0_1 h_S_ j)
    (Ideal.ofBits .f32 1174405120#32) = _
  have hs : Host.reduceAdd (F := Ideal) (G m c) (constant (F := Ideal) S_ .f32 0#32) reducesTo_S8192x1_S_d0_1 h_S_ j
      = ∑ r : Fin 8192, (0 - Cert.CosLoss.lossAt (xA m c) (labA m c) (wA m c) r) := by
    simp only [Host.reduceAdd, Ideal.hostReduceAdd_def]
    rw [Ideal.hostReduceAdd_total reducesTo_S8192x1_S_d0_1 (fun b => b.elim0) (G m c) _ j]
    show Ideal.ofBits .f32 0#32 + _ = _
    rw [Ideal.ofBits_zero_f32, zero_add, sum_idx2]
    refine Finset.sum_congr rfl fun r _ => ?_
    rw [Fin.sum_univ_one]
    rfl
  rw [hs]
  rfl

/-! ## The run, read -/

/-- The result buffer's contents after the run. -/
def resultBuf (c : Dev nD) : Buf (Elt Ideal) ((c.tc : Thread nD τ).loc main_v4) :=
  fun _ => Cert.CosLoss.result (xA m c) (labA m c) (wA m c)

/-- Every weakly fair execution of the kernel's program terminates with the result buffer at the specification's result
    and the arguments unchanged, when every label is in the class range. -/
theorem kernel_run (hlab : ∀ c i, (labA m c i).toNat < 32000) :
    θ_run defs (onTc (τ := τ) (main (F := Ideal))) ⟨m, fun _ => 0, ρ⟩ (fun r => ∀ c : Dev nD,
      r.2.mem ((c.tc : Thread nD τ).loc main_v4) = resultBuf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (tail_eq m hlab c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefValue.lean ====
/-
  The reference's result at the ideal instance is the mean over the batch of the negated row losses.
-/
import proofs.«401756_j22402549416286_2_alg».proof.Proof.Gen.ReferenceIdeal.Read
import proofs.«401756_j22402549416286_2_alg».proof.Proof.SpecLaws
import Idealize.ShloMosaic.PureOps.Ideal.Laws
import Idealize.ShloMosaic.Lib.Pipeline.Value
import Idealize.ShloMosaic.Lib.ValueIdx
import Idealize.ShloMosaic.Lib.StableHlo.Predicate

noncomputable section

open scoped BigOperators

namespace Cert.ReferenceIdeal.RefValue

open Cert.ReferenceIdeal Cert.ReferenceIdeal.Gen Cert.ReferenceIdeal.Read Idealize.ShloMosaic Idealize.ShloMosaic.ValueIdx

/-- The logit of row r for class c: the row over its Euclidean norm, against the class's weight row. -/
theorem logits_apply (x0 : (⟨S8192x256, .f32⟩ : BufTy).Contents (Elt Ideal))
    (x2 : (⟨S32000x256, .f32⟩ : BufTy).Contents (Elt Ideal)) (r : Fin 8192) (c : Fin 32000) :
    val_main_v4 (F := Ideal) x0 x2 (ix2 r c)
      = Cert.CosLoss.logit (fun k => x0 (ix2 r k)) (fun k => x2 (ix2 c k)) := by
  rw [val_main_v4_apply]
  unfold Cert.CosLoss.logit Cert.CosLoss.rowNorm
  refine Finset.sum_congr rfl fun k _ => ?_
  rw [val_main_v2_apply, val_main_v1_apply, val_main_v0_apply, val_main_call0_v2_apply, val_main_call0_v1_apply,
    val_main_v3_apply, val_main_call0_cst_apply]
  have e1 : lidx_main_v4 (ix2 r c) k = ix2 r k :=
    funext fun a => Fin.ext (by match a with | ⟨0, _⟩ => rfl | ⟨1, _⟩ => rfl)
  have e2 : idx_main_v3 (ridx_main_v4 (ix2 r c) k) = ix2 c k :=
    funext fun a => Fin.ext (by match a with | ⟨0, _⟩ => rfl | ⟨1, _⟩ => rfl)
  have e3 : ∀ k' : Fin 256,
      idx_main_call0_v1 (idx_main_call0_v2 (idx_main_v1 (lidx_main_v4 (ix2 r c) k))) k' = ix2 r k' := fun k' =>
    funext fun a => Fin.ext (by match a with | ⟨0, _⟩ => rfl | ⟨1, _⟩ => rfl)
  rw [e1, e2, Ideal.ofBits_def, Ideal.ofBits_zero_f32, zero_add, Ideal.hostDivf_def, Ideal.hostUnary_sqrt_def]
  refine congrArg (fun t => Ideal.div (x0 (ix2 r k)) (Ideal.sqrt t) * x2 (ix2 c k)) ?_
  refine Finset.sum_congr rfl fun k' _ => ?_
  rw [e3 k', val_main_call0_v0_apply, Ideal.mulf_def]

/-- The gather's dimension numbers, for short. -/
abbrev GD : GatherDims S8192x32000 S8192x2 S8192 := gather_S8192x32000_S8192x2_S8192_n_01_n_n_01_1_11

/-- Row coordinate of the gathered element: the first start-index component, read signed and clamped to the rows. -/
theorem gather_coord0 (idx : IVec S8192x2 32) (r : Fin 8192) :
    (GD.operandIdx (ix1 r) idx 0).val = min (idx (ix2 r (0 : Fin 2))).toInt.toNat 8191 := by
  show GD.start (ix1 r) idx 0 + GD.batchCoord (ix1 r) 0 + GD.offCoord (ix1 r) 0 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 2) ∈ GD.startIndexMap by decide)]
  have hsi : GD.siIdx (ix1 r) ⟨List.idxOf (0 : Fin 2) GD.startIndexMap,
      List.idxOf_lt_length_iff.2 (show (0 : Fin 2) ∈ GD.startIndexMap by decide)⟩ = ix2 r (0 : Fin 2) := by
    funext b; refine Fin.ext ?_
    match b with
    | ⟨0, _⟩ => rfl
    | ⟨1, _⟩ => rfl
  rw [hsi]
  rfl

/-- Class coordinate of the gathered element: the second start-index component, read signed and clamped to the classes. -/
theorem gather_coord1 (idx : IVec S8192x2 32) (r : Fin 8192) :
    (GD.operandIdx (ix1 r) idx 1).val = min (idx (ix2 r (1 : Fin 2))).toInt.toNat 31999 := by
  show GD.start (ix1 r) idx 1 + GD.batchCoord (ix1 r) 1 + GD.offCoord (ix1 r) 1 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 2) ∈ GD.startIndexMap by decide)]
  have hsi : GD.siIdx (ix1 r) ⟨List.idxOf (1 : Fin 2) GD.startIndexMap,
      List.idxOf_lt_length_iff.2 (show (1 : Fin 2) ∈ GD.startIndexMap by decide)⟩ = ix2 r (1 : Fin 2) := by
    funext b; refine Fin.ext ?_
    match b with
    | ⟨0, _⟩ => rfl
    | ⟨1, _⟩ => rfl
  rw [hsi]
  rfl

/-- The gather read at row r: the operand at the clamped (row, class) pair the start indices name. -/
theorem gather_apply {α : Type} (x : S8192x32000.Idx → α) (idx : IVec S8192x2 32) (r : Fin 8192) :
    Host.gather GD x idx (ix1 r)
      = x (ix2 (⟨min (idx (ix2 r (0 : Fin 2))).toInt.toNat 8191, by omega⟩ : Fin 8192)
            (⟨min (idx (ix2 r (1 : Fin 2))).toInt.toNat 31999, by omega⟩ : Fin 32000)) := by
  unfold Host.gather
  congr 1
  funext a
  refine Fin.ext ?_
  match a with
  | ⟨0, _⟩ => exact gather_coord0 idx r
  | ⟨1, _⟩ => exact gather_coord1 idx r

/-- Column 0 of the start indices is the row number: the wrap of a negative index never fires on a row count. -/
theorem v18_col0 (x1 : (⟨S8192, .i32⟩ : BufTy).Contents (Elt Ideal)) (r : Fin 8192) :
    val_main_v18 (F := Ideal) x1 (ix2 r (0 : Fin 2)) = BitVec.ofNat 32 r.val := by
  unfold val_main_v18
  rw [concatenate_pair_apply_left (1 : Fin S8192x2.rank) _ _ concatenates_S8192x1_S8192x1_S8192x2_d1
    (ix2 r (0 : Fin 2)) rfl (ix2 r (0 : Fin 1)) (fun b => by match b with | ⟨0, _⟩ => rfl | ⟨1, _⟩ => rfl)]
  rw [val_main_v16_apply, val_main_v10_apply]
  have hc : val_main_v7 (F := Ideal) (idx_main_v16 (ix2 r (0 : Fin 1))) = 0#1 := eq_zero_of_ne_one fun h1 => by
    rw [val_main_v7_apply, val_main_v5_apply, val_main_v6_apply, val_main_c_apply] at h1
    have hlt := (StableHlo.Predicate.slt_iff_toNat
      (by rw [BitVec.toNat_ofNat]; have := r.isLt; show r.val % 2 ^ 32 < 2 ^ 31; omega) (by decide)).mp h1
    exact Nat.not_lt_zero _ hlt
  rw [hc, select_zero, val_main_v5_apply]

/-- Column 1 of the start indices is the label: on a label in the class range the wrap of a negative index never fires. -/
theorem v18_col1 (x1 : (⟨S8192, .i32⟩ : BufTy).Contents (Elt Ideal)) (r : Fin 8192)
    (hx : 0 ≤ (x1 (ix1 r)).toInt ∧ (x1 (ix1 r)).toInt < 32000) :
    val_main_v18 (F := Ideal) x1 (ix2 r (1 : Fin 2)) = x1 (ix1 r) := by
  unfold val_main_v18
  rw [concatenate_pair_apply_right (1 : Fin S8192x2.rank) _ _ concatenates_S8192x1_S8192x1_S8192x2_d1
    (ix2 r (1 : Fin 2)) rfl rfl (ix2 r (0 : Fin 1))
    (fun b hb => by match b, hb with | ⟨0, _⟩, _ => rfl | ⟨1, _⟩, hb => exact absurd rfl hb) rfl]
  rw [val_main_v17_apply, val_main_v15_apply]
  have ei : idx_main_v17 (ix2 r (0 : Fin 1)) = ix1 r :=
    funext fun a => Fin.ext (by match a with | ⟨0, _⟩ => rfl)
  rw [ei]
  have hc : val_main_v12 (F := Ideal) x1 (ix1 r) = 0#1 := eq_zero_of_ne_one fun h1 => by
    rw [val_main_v12_apply, val_main_v11_apply, val_main_c_1_apply] at h1
    have hn := (Cert.CosLoss.toNat_lt_of_range hx).1
    have hlt := (StableHlo.Predicate.slt_iff_toNat (by omega) (by decide)).mp h1
    exact Nat.not_lt_zero _ hlt
  rw [hc, select_zero]

/-- The gathered logit of row r is the logit of the row's label. -/
theorem gathered_apply (x0 : (⟨S8192x256, .f32⟩ : BufTy).Contents (Elt Ideal)) (x1 : (⟨S8192, .i32⟩ : BufTy).Contents (Elt Ideal))
    (x2 : (⟨S32000x256, .f32⟩ : BufTy).Contents (Elt Ideal)) (h : Cert.CosLoss.Dom x0 x1 x2) (r : Fin 8192) :
    val_main_v19 (F := Ideal) x0 x1 x2 (ix1 r)
      = Cert.CosLoss.logit (fun k => x0 (ix2 r k)) (fun k => x2 (ix2 (Cert.CosLoss.labelOf x1 r) k)) := by
  have hx := h.labRange (ix1 r)
  unfold val_main_v19
  rw [gather_apply]
  have e0 : (⟨min (val_main_v18 (F := Ideal) x1 (ix2 r (0 : Fin 2))).toInt.toNat 8191, by omega⟩ : Fin 8192) = r := by
    apply Fin.ext
    show min (val_main_v18 (F := Ideal) x1 (ix2 r (0 : Fin 2))).toInt.toNat 8191 = r.val
    rw [v18_col0, StableHlo.Predicate.toInt_ofNat_small _ (by have := r.isLt; omega), Int.toNat_natCast]
    have := r.isLt; omega
  have e1 : (⟨min (val_main_v18 (F := Ideal) x1 (ix2 r (1 : Fin 2))).toInt.toNat 31999, by omega⟩ : Fin 32000)
      = Cert.CosLoss.labelOf x1 r := by
    apply Fin.ext
    show min (val_main_v18 (F := Ideal) x1 (ix2 r (1 : Fin 2))).toInt.toNat 31999 = min (x1 (ix1 r)).toNat 31999
    rw [v18_col1 x1 r hx, (Cert.CosLoss.toNat_lt_of_range hx).2, Int.toNat_natCast]
  rw [e0, e1, logits_apply]

/-- Row r's loss as the reference computes it is the specification's. -/
theorem loss_apply (x0 : (⟨S8192x256, .f32⟩ : BufTy).Contents (Elt Ideal)) (x1 : (⟨S8192, .i32⟩ : BufTy).Contents (Elt Ideal))
    (x2 : (⟨S32000x256, .f32⟩ : BufTy).Contents (Elt Ideal)) (h : Cert.CosLoss.Dom x0 x1 x2) (r : Fin 8192) :
    val_main_v35 (F := Ideal) x0 x1 x2 (ix1 r) = Cert.CosLoss.lossAt x0 x1 x2 r := by
  have hg := gathered_apply x0 x1 x2 h r
  have hsum : ∑ k : Fin 32000, val_main_v26 (F := Ideal) x0 x2 (idx_main_v27 (ix1 r) k)
      = ∑ c : Fin 32000, Ideal.exp (Cert.CosLoss.s30 * Cert.CosLoss.logit (fun k => x0 (ix2 r k)) (fun k => x2 (ix2 c k))) := by
    refine Finset.sum_congr rfl fun c _ => ?_
    have ei : idx_main_v27 (ix1 r) c = ix2 r c :=
      funext fun a => Fin.ext (by match a with | ⟨0, _⟩ => rfl | ⟨1, _⟩ => rfl)
    rw [ei, val_main_v26_apply, val_main_v25_apply, val_main_v24_apply, val_main_cst_4_apply, logits_apply,
      Ideal.hostUnary_exp_def, Ideal.mulf_def, Ideal.ofBits_def]
    rfl
  rw [val_main_v35_apply, val_main_v34_apply, val_main_v33_apply, val_main_v32_apply, val_main_v31_apply,
    val_main_v30_apply, val_main_v29_apply, val_main_v28_apply, val_main_v27_apply, val_main_v23_apply,
    val_main_v22_apply, val_main_v21_apply, val_main_v20_apply, val_main_cst_apply, val_main_cst_3_apply,
    val_main_cst_5_apply, val_main_cst_6_apply, hg, hsum]
  simp only [Ideal.ofBits_def, Ideal.ofBits_zero_f32, zero_add, Ideal.subf_def, Ideal.mulf_def, Ideal.addf_def,
    Ideal.hostUnary_exp_def, Ideal.hostUnary_log_def]
  rfl

/-- A row index is its one coordinate. -/
def rowEquiv : Fin 8192 ≃ S8192.Idx where
  toFun r := ix1 r
  invFun j := j 0
  left_inv _ := rfl
  right_inv j := (eq_ix1 j).symm

/-- On the domain the reference's result is the specification's. -/
theorem result_eq (x0 : (⟨S8192x256, .f32⟩ : BufTy).Contents (Elt Ideal)) (x1 : (⟨S8192, .i32⟩ : BufTy).Contents (Elt Ideal))
    (x2 : (⟨S32000x256, .f32⟩ : BufTy).Contents (Elt Ideal)) (h : Cert.CosLoss.Dom x0 x1 x2) :
    val_main_v38 (F := Ideal) x0 x1 x2 = fun _ => Cert.CosLoss.result x0 x1 x2 := by
  funext i
  have hsum : ∑ j : S8192.Idx, val_main_v35 (F := Ideal) x0 x1 x2 j = ∑ r : Fin 8192, Cert.CosLoss.lossAt x0 x1 x2 r := by
    rw [← Equiv.sum_comp rowEquiv]
    exact Finset.sum_congr rfl fun r _ => loss_apply x0 x1 x2 h r
  rw [val_main_v38_apply, val_main_v37_apply, val_main_v36_apply, val_main_cst_7_apply, val_main_cst_8_apply, hsum,
    Ideal.ofBits_def, Ideal.ofBits_zero_f32, zero_add, Ideal.hostNegf_def, Ideal.negf_def, Ideal.hostDivf_def]
  exact (Cert.CosLoss.result_eq_neg_mean h).symm

end Cert.ReferenceIdeal.RefValue

end
-- ==== Proof.PreFacts.lean ====
/-
  The precondition, read: every entry of the batch and of the weight is a real number, every label is in the class range,
  and no row of the batch is zero.
-/
import proofs.«401756_j22402549416286_2_alg».proof.Proof.Gen.Pre_finite_inputs
import proofs.«401756_j22402549416286_2_alg».proof.Proof.Spec
import Idealize.ShloMosaic.PureOps.Ideal.Laws
import Idealize.ShloMosaic.Lib.ReduceAll
import Idealize.ShloMosaic.Lib.StableHlo.Predicate
import Idealize.ShloMosaic.Lib.ValueIdx

noncomputable section

open scoped BigOperators

namespace Cert.Pre_finite_inputs.PreFacts

open Cert.Pre_finite_inputs Idealize.ShloMosaic Idealize.ShloMosaic.ValueIdx

/-- The scalar shape has one index. -/
instance : Subsingleton S_.Idx := ⟨fun _ _ => funext fun d => d.elim0⟩

/-- The word 0x7F800000 is +∞. -/
theorem inf_word : Ideal.ofBits .f32 0x7F800000#32 = (⊤ : EReal) := by
  simp [Ideal.ofBits, Ideal.ieee]

/-- An extended real whose absolute value is below +∞ is a real number. -/
theorem real_of_abs_lt_top (a : EReal)
    (h : Ideal.cmp .olt (max a (-a)) (Ideal.ofBits .f32 0x7F800000#32) = 1#1) : ∃ r : ℝ, a = (r : EReal) := by
  rw [inf_word] at h
  simp only [Ideal.cmp, StableHlo.Predicate.ofBool_eq_one_iff, decide_eq_true_eq] at h
  induction a using EReal.rec with
  | bot => simp at h
  | coe r => exact ⟨r, rfl⟩
  | top => simp at h

/-- A word at least 0 and below 32000, both signed, has its signed value in the class range. -/
theorem range_of_cmp (a : BitVec 32) (h0 : IntOp.cmpi .sge a 0#32 = 1#1) (h1 : IntOp.cmpi .slt a 32000#32 = 1#1) :
    0 ≤ a.toInt ∧ a.toInt < 32000 := by
  have z : (0#32 : BitVec 32).toInt = 0 := by decide
  have c : (32000#32 : BitVec 32).toInt = 32000 := by decide
  simp only [IntOp.cmpi, StableHlo.Predicate.ofBool_eq_one_iff, BitVec.sle, BitVec.slt, decide_eq_true_eq, z, c] at h0 h1
  exact ⟨h0, h1⟩

/-- The precondition's five conjuncts, each read at an element. -/
theorem pre_split (x0 : FVec Ideal S8192x256 .f32) (x1 : IVec S8192 32) (x2 : FVec Ideal S32000x256 .f32)
    (h : Cert.Pre_finite_inputs.fn (F := Ideal) x0 x1 x2 = fun _ => 1#1) :
    (∀ i : S8192x256.Idx, Ideal.cmp .olt (max (x0 i) (-(x0 i))) (Ideal.ofBits .f32 0x7F800000#32) = 1#1) ∧
    (∀ i : S32000x256.Idx, Ideal.cmp .olt (max (x2 i) (-(x2 i))) (Ideal.ofBits .f32 0x7F800000#32) = 1#1) ∧
    (∀ i : S8192.Idx, IntOp.cmpi .sge (x1 i) 0#32 = 1#1) ∧
    (∀ i : S8192.Idx, IntOp.cmpi .slt (x1 i) 32000#32 = 1#1) ∧
    (∀ i : S8192.Idx, Ideal.cmp .ogt
      (Host.reduceAdd (mulf x0 x0) (constant S_ .f32 0x00000000#32) Facts.reducesTo_S8192x256_S8192_d1 Facts.h_S_ i)
      (Ideal.ofBits .f32 0x00000000#32) = 1#1) := by
  have h0 := congrFun h ix0
  simp only [fn, fn_part1, andi, IntOp.andi_eq_one] at h0
  obtain ⟨⟨⟨⟨h3, h7⟩, h11⟩, h15⟩, h21⟩ := h0
  exact ⟨fun i => Host.reduce_andi_all _ _ _ _ ix0 h3 i, fun i => Host.reduce_andi_all _ _ _ _ ix0 h7 i,
    fun i => Host.reduce_andi_all _ _ _ _ ix0 h11 i, fun i => Host.reduce_andi_all _ _ _ _ ix0 h15 i,
    fun i => Host.reduce_andi_all _ _ _ _ ix0 h21 i⟩

/-- A row's sum of squares, as the precondition computes it. -/
theorem rowsum (x0 : FVec Ideal S8192x256 .f32) (r : Fin 8192) :
    Host.reduceAdd (mulf x0 x0) (constant S_ .f32 0x00000000#32) Facts.reducesTo_S8192x256_S8192_d1 Facts.h_S_ (ix1 r)
      = ∑ k : Fin 256, x0 (ix2 r k) * x0 (ix2 r k) := by
  simp only [Host.reduceAdd, Ideal.hostReduceAdd_def]
  rw [Ideal.hostReduceAdd_single Facts.reducesTo_S8192x256_S8192_d1 (by decide)]
  show Ideal.ofBits .f32 0x00000000#32 + _ = _
  rw [Ideal.ofBits_zero_f32, zero_add]
  refine Finset.sum_congr rfl fun k _ => ?_
  have e : ∀ j : S8192x256.Idx, mulf x0 x0 j = x0 j * x0 j := fun _ => rfl
  rw [e]
  have : (Shape.Reduces.lift (by decide : S8192x256.Reduces [1] S8192) (ix1 r) k) = ix2 r k := by
    funext a; exact Fin.ext (by match a with | ⟨0, _⟩ => rfl | ⟨1, _⟩ => rfl)
  rw [this]
  rfl

/-- The printed precondition, all ones, gives the domain. -/
theorem dom_of_pre (x0 : FVec Ideal S8192x256 .f32) (x1 : IVec S8192 32) (x2 : FVec Ideal S32000x256 .f32)
    (h : Cert.Pre_finite_inputs.fn (F := Ideal) x0 x1 x2 = fun _ => 1#1) : Cert.CosLoss.Dom x0 x1 x2 := by
  obtain ⟨hx, hw, hge, hlt, hpos⟩ := pre_split x0 x1 x2 h
  refine ⟨fun i => real_of_abs_lt_top _ (hx i), fun i => real_of_abs_lt_top _ (hw i),
    fun i => range_of_cmp _ (hge i) (hlt i), fun r => ?_⟩
  have hr := hpos (ix1 r)
  rw [rowsum, Ideal.ofBits_zero_f32] at hr
  simpa only [Ideal.cmp, StableHlo.Predicate.ofBool_eq_one_iff, decide_eq_true_eq] using hr

end Cert.Pre_finite_inputs.PreFacts

end
-- ==== Proof.lean ====
/-
  The claim: the margin-softmax loss kernel against its jnp reference, over the extended reals.

  Both programs normalise each row of the batch by its Euclidean norm, take its inner products with the 32000 rows of the
  weight (the logits z), and from the label y of the row form
      L = s·(z y − m) − log (exp (s·(z y − m)) + (Σ_c exp (s·z c) − exp (s·z y))),   s = 30, m = f32(0.4);
  the kernel returns the mean of −L over the 8192 rows, the reference the negated mean of L.

  The kernel gets z y and Σ_c exp (s·z c) block by block: each grid point takes 512 rows, and a loop of 25 trips over
  1280 classes each adds to two carried columns the trip's share of the sum of exponentials and the logit at the class
  equal to the label (a compare of the class number with the label; at most one class of all 32000 matches). Sums over
  the extended reals may be regrouped and reordered freely, and a sum with one nonzero term is that term, so the carried
  columns after the last trip are the reference's full sum and its gathered logit — for a label in the class range; outside
  it the kernel finds no class and the reference's gather clamps, whence the precondition's label conjuncts. The last step,
  the mean of the negated losses against the negated mean, is an identity of real numbers but not of extended reals (a row
  at +∞ beside a row at −∞ breaks it), so every row's loss must be real: that holds when the inputs are finite and no row
  of the batch is zero (a zero row divides zero by zero, where the reference is undefined), whence the precondition's last
  conjunct. The logarithm's argument is positive because the full sum of exponentials contains the label's term.

  Modules: Spec (the function), SpecLaws (the two laws that need the domain), KFold / KTrip (the kernel body's loop as a
  recursion, and the generated run opened to it), KPay / KFoldValue (the body's payloads and the induction over the trips),
  KValue (blocks to the output column, and the host's mean), RefValue (the reference's stages), PreFacts (the precondition
  read). The frames of the two kernel programs are the generated ones; the reference's frame is its generated run.
-/
import proofs.«401756_j22402549416286_2_alg».proof.Defs
import proofs.«401756_j22402549416286_2_alg».proof.Proof.Gen.Kernel
import proofs.«401756_j22402549416286_2_alg».proof.Proof.Gen.Kernel.Skeleton
import proofs.«401756_j22402549416286_2_alg».proof.Proof.Gen.Kernel.Loops
import proofs.«401756_j22402549416286_2_alg».proof.Proof.Gen.Kernel.Launch
import proofs.«401756_j22402549416286_2_alg».proof.Proof.Gen.Kernel.Points
import proofs.«401756_j22402549416286_2_alg».proof.Proof.Gen.Kernel.Frame
import proofs.«401756_j22402549416286_2_alg».proof.Proof.Gen.KernelIdeal
import proofs.«401756_j22402549416286_2_alg».proof.Proof.Gen.KernelIdeal.Skeleton
import proofs.«401756_j22402549416286_2_alg».proof.Proof.Gen.KernelIdeal.Loops
import proofs.«401756_j22402549416286_2_alg».proof.Proof.Gen.KernelIdeal.Launch
import proofs.«401756_j22402549416286_2_alg».proof.Proof.Gen.KernelIdeal.Points
import proofs.«401756_j22402549416286_2_alg».proof.Proof.Gen.KernelIdeal.Frame
import proofs.«401756_j22402549416286_2_alg».proof.Proof.Gen.ReferenceIdeal
import proofs.«401756_j22402549416286_2_alg».proof.Proof.Gen.Pre_finite_inputs
import proofs.«401756_j22402549416286_2_alg».proof.Proof.Gen.ReferenceIdeal.Run
import proofs.«401756_j22402549416286_2_alg».proof.Proof.Gen.ReferenceIdeal.Read
import proofs.«401756_j22402549416286_2_alg».proof.Proof.SpecLaws
import proofs.«401756_j22402549416286_2_alg».proof.Proof.KValue
import proofs.«401756_j22402549416286_2_alg».proof.Proof.RefValue
import proofs.«401756_j22402549416286_2_alg».proof.Proof.PreFacts
import Idealize.ShloMosaic.Adequacy
import Idealize.ShloMosaic.Init

noncomputable section

namespace Cert.Proof

open Idealize.ShloMosaic Idealize.SL.Sem

/-- The word-level kernel terminates and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference terminates and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments and satisfying the precondition, both idealized programs end with the result
    buffer at the mean over the batch of the negated row losses. -/
theorem algebraic : Cert.algebraic_KernelIdeal_ReferenceIdeal := by
  intro m ρ m' ρ' hpre hagree
  have hdom : ∀ c : Dev Cert.KernelIdeal.nD,
      Cert.CosLoss.Dom (Cert.KernelIdeal.KValue.xA m c) (Cert.KernelIdeal.KValue.labA m c) (Cert.KernelIdeal.KValue.wA m c) :=
    fun c => Cert.Pre_finite_inputs.PreFacts.dom_of_pre _ _ _ (hpre c)
  have hlab : ∀ c i, (Cert.KernelIdeal.KValue.labA m c i).toNat < 32000 :=
    fun c i => (Cert.CosLoss.toNat_lt_of_range ((hdom c).labRange i)).1
  refine ⟨Cert.KernelIdeal.KValue.resultBuf m, Cert.KernelIdeal.KValue.kernel_run m ρ hlab, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, (hagree c).1, (hagree c).2.1, (hagree c).2.2]
  exact Cert.ReferenceIdeal.RefValue.result_eq _ _ _ (hdom c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
